-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S2048x2048 : Shape := ⟨2, ![2048, 2048]⟩
abbrev S2048 : Shape := ⟨1, ![2048]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S16384x2048 .f32) (main_arg1 : FVec F S2048x2048 .f32) (main_arg2 : FVec F S2048 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  main_v13
-- ==== Kernel.lean ====
abbrev S16384x2048 : Shape := ⟨2, ![16384, 2048]⟩
abbrev S2048x2048 : Shape := ⟨2, ![2048, 2048]⟩
abbrev S2048 : Shape := ⟨1, ![2048]⟩
abbrev S1x2048 : Shape := ⟨2, ![1, 2048]⟩
abbrev S512x2048 : Shape := ⟨2, ![512, 2048]⟩

abbrev nBuf : Space → Nat
  | .hbm => 6
  | .vmem => 6
  | .smem => 0
  | _ => 0

abbrev bufTy : (tb : Table) → Fin (tcTables nBuf tb) → BufTy
  | .hbm, ⟨0, _⟩ => ⟨S16384x2048, .f32⟩
  | .hbm, ⟨1, _⟩ => ⟨S2048x2048, .f32⟩
  | .hbm, ⟨2, _⟩ => ⟨S2048, .f32⟩
  | .hbm, ⟨3, _⟩ => ⟨S2048x2048, .bf16⟩
  | .hbm, ⟨4, _⟩ => ⟨S1x2048, .f32⟩
  | .hbm, ⟨5, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S2048x2048, .bf16⟩
  | .local _ .vmem, ⟨3, _⟩ => ⟨S1x2048, .f32⟩
  | .local _ .vmem, ⟨4, _⟩ => ⟨S512x2048, .f32⟩
  | .local _ .vmem, ⟨5, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bitsLt_bf16_f32 : FTy.bits .bf16 < FTy.bits .f32
  shapeCasts_S2048_S1x2048 : S2048.ShapeCasts S1x2048
  inb_S512x2048_S512x2048_0_0 : ∀ a, (![0, 0] : Fin 2 → Nat) a + S512x2048.size a ≤ S512x2048.size a
  h_S512x2048 : 0 < S512x2048.numel
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  dot_S512x2048_S2048x2048_S512x2048_1_0_0_1_n_n_wf : DotDims.WF S512x2048 S2048x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S16384x2048.size a
  hwx0_0 : ∀ i : grid0.Coords, EltTy.bits .f32 = 32 ∨ (Rect.block (s := S16384x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .bf16 = 32 ∨ (Rect.block (s := S2048x2048) S2048x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S16384x2048.size a
  hwx0_3 : ∀ i : grid0.Coords, EltTy.bits .f32 = 32 ∨ (Rect.block (s := S16384x2048) S512x2048.size (cc0_transform_3 i) (hinb0_3 i)).WholeWords (EltTy.packing .f32)

variable [Facts₀]

def dot_S512x2048_S2048x2048_S512x2048_1_0_0_1_n_n : DotDims S512x2048 S2048x2048 S512x2048 where
  lhsContracting := [1]
  rhsContracting := [0]
  lhsNonContracting := [0]
  rhsNonContracting := [1]
  lhsBatch := []
  rhsBatch := []
  wf := dot_S512x2048_S2048x2048_S512x2048_1_0_0_1_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x2048 : Shape := ⟨2, ![16384, 2048]⟩
abbrev S2048x2048 : Shape := ⟨2, ![2048, 2048]⟩
abbrev S2048 : Shape := ⟨1, ![2048]⟩
abbrev S2048x16384 : Shape := ⟨2, ![2048, 16384]⟩
abbrev S1x2048 : Shape := ⟨2, ![1, 2048]⟩

abbrev nBuf : Space → Nat
  | .hbm => 10
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048x2048, .f32⟩
  | .hbm, ⟨2, _⟩ => ⟨S2048, .f32⟩
  | .hbm, ⟨3, _⟩ => ⟨S2048x2048, .f32⟩
  | .hbm, ⟨4, _⟩ => ⟨S2048x16384, .f32⟩
  | .hbm, ⟨5, _⟩ => ⟨S2048x16384, .f32⟩
  | .hbm, ⟨6, _⟩ => ⟨S16384x2048, .f32⟩
  | .hbm, ⟨7, _⟩ => ⟨S1x2048, .f32⟩
  | .hbm, ⟨8, _⟩ => ⟨S16384x2048, .f32⟩
  | .hbm, ⟨9, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]

class Facts₀ : Prop where
  transposes_S2048x2048_S2048x2048_1_0 : S2048x2048.Transposes [1, 0] S2048x2048
  transposes_S16384x2048_S2048x16384_1_0 : S16384x2048.Transposes [1, 0] S2048x16384
  transposes_S2048x16384_S16384x2048_1_0 : S2048x16384.Transposes [1, 0] S16384x2048
  bcast_S2048_S1x2048_1 : S2048.BroadcastsInDim S1x2048 (![1] : Fin 1 → Fin S1x2048.rank)
  bcast_S1x2048_S16384x2048_0_1 : S1x2048.BroadcastsInDim S16384x2048 (![0, 1] : Fin 2 → Fin S16384x2048.rank)
  dot_S2048x2048_S2048x16384_S2048x16384_1_0_0_1_n_n_wf : DotDims.WF S2048x2048 S2048x16384 S2048x16384 [1] [0] [0] [1] [] []

variable [Facts₀]

def dot_S2048x2048_S2048x16384_S2048x16384_1_0_0_1_n_n : DotDims S2048x2048 S2048x16384 S2048x16384 where
  lhsContracting := [1]
  rhsContracting := [0]
  lhsNonContracting := [0]
  rhsNonContracting := [1]
  lhsBatch := []
  rhsBatch := []
  wf := dot_S2048x2048_S2048x16384_S2048x16384_1_0_0_1_n_n_wf

class Facts : Prop extends Facts₀ where

variable [Facts]
-- ==== Proof.LibDense.lean ====
/-
  One dense layer with ReLU, row by row.

  For a row `h` of `K` numbers, a `K × N` weight matrix `W` and a bias row `b`, the layer's entry `j` is
  `max (∑ k, h k · W k j + b j) 0` on the extended reals. A rows-by-columns matrix product (no batch axis, the left
  operand contracted on its columns, the right on its rows) read at (r, j) is `∑ k, lhs (r, k) · rhs (k, j)`, whether
  it is accumulated into a zero array or has no accumulator; adding a bias row laid along every row and taking the
  maximum with zero then gives the layer of row `r`. Nothing here depends on the number of rows, so a product over
  a tile of rows and a product over all rows read the same way.
-/
import Idealize.ShloMosaic.Lib.ValueIdx
import Idealize.ShloMosaic.Lib.ValueLayout
import Idealize.ShloMosaic.Lib.KernelVsHost
import Idealize.ShloMosaic.Lib.Pipeline.Value
import Idealize.ShloMosaic.PureOps.Ideal.Laws

noncomputable section

namespace Cert.LibDense

open Idealize.ShloMosaic Idealize.ShloMosaic.ValueIdx

/-- One dense layer followed by ReLU on one row: entry `j` is `max (∑ k, h k · W k j + b j) 0`. -/
def dense {K N : ℕ} (h : Fin K → EReal) (W : Fin K → Fin N → EReal) (b : Fin N → EReal) (j : Fin N) : EReal :=
  max (∑ k : Fin K, h k * W k j + b j) 0

/-- The layer depends on its input row only through the row's entries. -/
theorem dense_congr {K N : ℕ} {h h' : Fin K → EReal} (e : ∀ k, h k = h' k) (W : Fin K → Fin N → EReal) (b : Fin N → EReal)
    (j : Fin N) : dense h W b j = dense h' W b j := by
  rw [show h = h' from funext e]

section Plain

variable {M K N : ℕ}

/-- The rows-by-columns product's left operand index keeps the result's row. -/
theorem plain_lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from fun h => nomatch h),
    dif_pos (show (0 : Fin (⟨2, ![M, K]⟩ : Shape).rank) ∈ (DotDims.plain M K N).lhsNonContracting from List.mem_singleton.mpr rfl)]
  rfl

/-- Its column is the contraction position. -/
theorem plain_lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row is the contraction position. -/
theorem plain_rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- Its column is the result's column. -/
theorem plain_rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from fun h => nomatch h),
    dif_pos (show (1 : Fin (⟨2, ![K, N]⟩ : Shape).rank) ∈ (DotDims.plain M K N).rhsNonContracting from List.mem_singleton.mpr rfl)]
  rfl

/-- The sum over the product's contraction index, re-indexed by the contracted coordinate `k : Fin K`, with the
    operands read at (r, k) and (k, j). -/
theorem plain_sum {φ₁ φ₂ : FTy} (lhs : FVec Ideal ⟨2, ![M, K]⟩ φ₁) (rhs : FVec Ideal ⟨2, ![K, N]⟩ φ₂) (r : Fin M) (j : Fin N) :
    (∑ q : (DotDims.plain M K N).contr.Idx,
        lhs ((DotDims.plain M K N).lhsIdx (ix2 r j) q) * rhs ((DotDims.plain M K N).rhsIdx (ix2 r j) q))
      = ∑ k : Fin K, lhs (ix2 r k) * rhs (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r j) ((contrEquiv1 (DotDims.plain M K N) K rfl rfl).symm k) = ix2 r k :=
    funext fun a => Fin.ext (by
      match a with
      | ⟨0, _⟩ => exact plain_lhs_row _ _
      | ⟨1, _⟩ => exact (plain_lhs_col _ _).trans hk)
  have er : (DotDims.plain M K N).rhsIdx (ix2 r j) ((contrEquiv1 (DotDims.plain M K N) K rfl rfl).symm k) = ix2 k j :=
    funext fun a => Fin.ext (by
      match a with
      | ⟨0, _⟩ => exact (plain_rhs_row _ _).trans hk
      | ⟨1, _⟩ => exact plain_rhs_col _ _)
  rw [el, er]

/-- A rows-by-columns product accumulated into a zero array, read at (r, j). -/
theorem matmul_plain_zero_apply {φ₁ φ₂ : FTy} (prec : Option ContractPrecision) (lhs : FVec Ideal ⟨2, ![M, K]⟩ φ₁)
    (rhs : FVec Ideal ⟨2, ![K, N]⟩ φ₂) (r : Fin M) (j : Fin N) :
    FloatOps.matmul (DotDims.plain M K N) prec lhs rhs (constant ⟨2, ![M, N]⟩ .f32 0x00000000#32) (ix2 r j)
      = ∑ k : Fin K, lhs (ix2 r k) * rhs (ix2 k j) := by
  rw [Ideal.matmul_constant_zero_apply]
  exact plain_sum lhs rhs r j

/-- The host's rows-by-columns product, read at (r, j). -/
theorem dotGeneral_plain_apply {φ₁ φ₂ : FTy} (prec : Option ContractPrecision) (sched : HostSchedule)
    (lhs : FVec Ideal ⟨2, ![M, K]⟩ φ₁) (rhs : FVec Ideal ⟨2, ![K, N]⟩ φ₂) (r : Fin M) (j : Fin N) :
    FloatOps.dotGeneral (DotDims.plain M K N) prec sched lhs rhs (ix2 r j) = ∑ k : Fin K, lhs (ix2 r k) * rhs (ix2 k j) := by
  rw [Ideal.dotGeneral_apply]
  exact plain_sum lhs rhs r j

end Plain

/-! ## The layer as a kernel and as a host program spell it -/

section Layers

variable {M K N : ℕ} {φ₁ φ₂ : FTy}

/-- A kernel's layer — the product into a zero accumulator, a one-row bias laid along every row, the maximum with a
    splat zero — read at (r, j), given the input's row `r`. The product's dimension numbers may be any record that
    IS the rows-by-columns one. -/
theorem kernel_layer_apply (d : DotDims ⟨2, ![M, K]⟩ ⟨2, ![K, N]⟩ ⟨2, ![M, N]⟩) (hd : d = DotDims.plain M K N)
    (prec : Option ContractPrecision) (h : FVec Ideal ⟨2, ![M, K]⟩ φ₁) (W : FVec Ideal ⟨2, ![K, N]⟩ φ₂)
    (b : FVec Ideal ⟨2, ![1, N]⟩ .f32) (hb : (⟨2, ![1, N]⟩ : Shape).Broadcasts ⟨2, ![M, N]⟩) (r : Fin M) (j : Fin N)
    (row : Fin K → EReal) (hrow : ∀ k, h (ix2 r k) = row k) :
    maximumf (addf (matmul d prec h W (constant (F := Ideal) ⟨2, ![M, N]⟩ .f32 0x00000000#32)) (broadcastTo ⟨2, ![M, N]⟩ b hb))
        (broadcast ⟨2, ![M, N]⟩ (Scalar.ofBits (F := Ideal) .f32 0x00000000#32)) (ix2 r j)
      = dense row (fun k j => W (ix2 k j)) (fun j => b (ix2 (0 : Fin 1) j)) j := by
  subst hd
  show max (FloatOps.matmul (DotDims.plain M K N) prec h W (constant ⟨2, ![M, N]⟩ .f32 0x00000000#32) (ix2 r j)
      + broadcastTo ⟨2, ![M, N]⟩ b hb (ix2 r j)) (Ideal.ofBits .f32 0x00000000#32) = _
  rw [matmul_plain_zero_apply, broadcastTo_1b_ab_apply, Ideal.ofBits_zero_f32]
  unfold dense
  simp only [hrow]

/-- A host program's layer — the product, a bias vector laid along axis 1 of a one-row matrix and that row down the
    rows, the maximum with a broadcast zero — read at (e, j), given the input's row `e`. -/
theorem host_layer_apply (d : DotDims ⟨2, ![M, K]⟩ ⟨2, ![K, N]⟩ ⟨2, ![M, N]⟩) (hd : d = DotDims.plain M K N)
    (prec : Option ContractPrecision) (h : FVec Ideal ⟨2, ![M, K]⟩ φ₁) (W : FVec Ideal ⟨2, ![K, N]⟩ φ₂)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) (e : Fin M) (j : Fin N)
    (row : Fin K → EReal) (hrow : ∀ k, h (ix2 e k) = row k) :
    maximumf (addf (Host.dotGeneral d prec h W)
          (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32)) (ix2 e j)
      = dense row (fun k j => W (ix2 k j)) (fun j => b (ix1 j)) j := by
  subst hd
  have e2 := broadcastInDim_oneRow_apply h2 (broadcastInDim ⟨2, ![1, N]⟩ ![1] h1 b) e j
  have e1 := broadcastInDim_apply ![1] h1 b (ix2 (0 : Fin 1) j) (ix1 j) (fun a => by
    match a with
    | ⟨0, _⟩ =>
      show j.val = if N = 1 then 0 else j.val
      split
      · have := j.isLt; omega
      · rfl)
  have e0 := broadcastInDim_apply ![] h0 (constant (F := Ideal) ⟨0, ![]⟩ .f32 0x00000000#32) (ix2 e j) (fun a => a.elim0)
    (fun a => a.elim0)
  show max (FloatOps.dotGeneral (DotDims.plain M K N) prec .single h W (ix2 e j)
      + broadcastInDim ⟨2, ![M, N]⟩ ![0, 1] h2 (broadcastInDim ⟨2, ![1, N]⟩ ![1] h1 b) (ix2 e j))
      (broadcastInDim ⟨2, ![M, N]⟩ ![] h0 (constant (F := Ideal) ⟨0, ![]⟩ .f32 0x00000000#32) (ix2 e j)) = _
  rw [dotGeneral_plain_apply, e2, e1, e0]
  show max _ (Ideal.ofBits .f32 0x00000000#32) = _
  rw [Ideal.ofBits_zero_f32]
  unfold dense
  simp only [hrow]

end Layers

end Cert.LibDense

end
-- ==== Proof.KernelTile.lean ====
/-
  One slab of the kernel: what the body stores, read at an index.

  At a grid point the body loads a 512 × 2048 slab of `x`, the whole 2048 × 2048 matrix `W` and the bias as a one-row
  matrix, multiplies slab by matrix into a zero accumulator and adds the bias row along every row of the slab. A change
  of float format is the identity on the extended reals, and a cast to the same shape is the identity, so the stored
  slab's entry `(p, q)` is `∑ k, slab (p, k) · W (k, q) + bias (0, q)`.
-/
import proofs.«161759_g77421080477881_cont_sun_c4_101_2_alg».proof.Proof.Gen.KernelIdeal.Skeleton
import proofs.«161759_g77421080477881_cont_sun_c4_101_2_alg».proof.Proof.LibDense

noncomputable section

namespace Cert.KernelIdeal.Tile

open Cert.KernelIdeal Cert.KernelIdeal.Gen
open Idealize.ShloMosaic Idealize.ShloMosaic.ValueIdx

/-- The body's product is the plain rows-by-columns one: 512 × 2048 by 2048 × 2048. -/
theorem dot_plain : dot_S512x2048_S2048x2048_S512x2048_1_0_0_1_n_n = DotDims.plain 512 2048 2048 := rfl

/-- The stored slab at `(p, q)`: row `p` of the loaded slab against column `q` of the weights, plus the bias at `q`. -/
theorem stored_apply (x0 : FVec Ideal S512x2048 .f32) (x1 : FVec Ideal S2048x2048 .bf16) (x2 : FVec Ideal S1x2048 .f32)
    (p : Fin 512) (q : Fin 2048) :
    k0_pay1 (F := Ideal) x0 x1 x2 (ix2 p q) = ∑ k : Fin 2048, x0 (ix2 p k) * x1 (ix2 k q) + x2 (ix2 (0 : Fin 1) q) := by
  unfold k0_pay1
  show FloatOps.matmul (F := Ideal) dot_S512x2048_S2048x2048_S512x2048_1_0_0_1_n_n none
        (truncf (F := Ideal) .bf16 x0 bitsLt_bf16_f32 : FVec Ideal S512x2048 .bf16)
        (shapeCast S2048x2048 x1 shapeCasts_S2048x2048_S2048x2048 : FVec Ideal S2048x2048 .bf16)
        (constant (F := Ideal) S512x2048 .f32 0x00000000#32) (ix2 p q)
      + broadcastTo S512x2048 (shapeCast S1x2048 x2 shapeCasts_S1x2048_S1x2048) broadcasts_S1x2048_S512x2048 (ix2 p q) = _
  rw [shapeCast_self, shapeCast_self, dot_plain, Cert.LibDense.matmul_plain_zero_apply, broadcastTo_1b_ab_apply]
  rfl

end Cert.KernelIdeal.Tile

end
-- ==== Proof.Affine.lean ====
/-
  The affine layer on the extended reals.

  For an input matrix `x` of 16384 rows of 2048 numbers, a 2048 × 2048 weight matrix `W` and a bias vector `b` of
  2048 numbers, the layer's entry at row `r`, column `j` is `∑ k, x (r, k) · W (k, j) + b j`. Both programs of this
  certificate compute it: one as `x · W` a slab of 512 rows at a time, the other as `(Wᵀ · xᵀ)ᵀ`. The two differ only in
  the order of the two factors under the sum, and multiplication of extended reals is commutative, so no finiteness of
  the entries is needed.
-/
import Idealize.ShloMosaic.Lib.ValueIdx

noncomputable section

namespace Cert.Affine

open Idealize.ShloMosaic Idealize.ShloMosaic.ValueIdx

/-- The layer: entry `(r, j)` is `∑ k, x (r, k) · W (k, j) + b j`. -/
def affine (x : (⟨2, ![16384, 2048]⟩ : Shape).Idx → EReal) (W : (⟨2, ![2048, 2048]⟩ : Shape).Idx → EReal)
    (b : (⟨1, ![2048]⟩ : Shape).Idx → EReal) : (⟨2, ![16384, 2048]⟩ : Shape).Idx → EReal :=
  fun i => ∑ k : Fin 2048, x (ix2 (i 0) k) * W (ix2 k (i 1)) + b (ix1 (i 1))

/-- The layer read at explicit coordinates. -/
theorem affine_apply (x : (⟨2, ![16384, 2048]⟩ : Shape).Idx → EReal) (W : (⟨2, ![2048, 2048]⟩ : Shape).Idx → EReal)
    (b : (⟨1, ![2048]⟩ : Shape).Idx → EReal) (r : Fin 16384) (j : Fin 2048) :
    affine x W b (ix2 r j) = ∑ k : Fin 2048, x (ix2 r k) * W (ix2 k j) + b (ix1 j) := rfl

/-- The same entry with the factors the other way round, as the transposed product `Wᵀ · xᵀ` spells it. -/
theorem affine_apply_comm (x : (⟨2, ![16384, 2048]⟩ : Shape).Idx → EReal) (W : (⟨2, ![2048, 2048]⟩ : Shape).Idx → EReal)
    (b : (⟨1, ![2048]⟩ : Shape).Idx → EReal) (r : Fin 16384) (j : Fin 2048) :
    affine x W b (ix2 r j) = ∑ k : Fin 2048, W (ix2 k j) * x (ix2 r k) + b (ix1 j) := by
  rw [affine_apply]
  exact congrArg (· + b (ix1 j)) (Finset.sum_congr rfl fun k _ => mul_comm _ _)

end Cert.Affine

end
-- ==== Proof.KernelValue.lean ====
/-
  The kernel's result array is the affine layer.

  The grid has 32 points; point `t` works on rows `512 t … 512 t + 511`. Its input slab is those rows of `x`; the weight
  and bias windows have one block each, the whole array, at every point. Before the region the host casts `W` to
  another float format (the identity on the extended reals) and lays the bias out as a one-row matrix. So what point `t`
  writes back, read at `(p, q)`, is `∑ k, x (512 t + p, k) · W (k, q) + b q`: block `t` of the layer. The 32 blocks tile
  the 16384 rows (row `r` lies in block `r / 512`), so after the run the result array is the layer everywhere.
-/
import proofs.«161759_g77421080477881_cont_sun_c4_101_2_alg».proof.Proof.Gen.KernelIdeal.Value
import proofs.«161759_g77421080477881_cont_sun_c4_101_2_alg».proof.Proof.KernelTile
import proofs.«161759_g77421080477881_cont_sun_c4_101_2_alg».proof.Proof.Affine
import Idealize.ShloMosaic.Lib.Pipeline.Value
import Idealize.ShloMosaic.Lib.StableHlo.Run
import Idealize.ShloMosaic.Lib.ValueLayout

noncomputable section

namespace Cert.KernelIdeal.Hand

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The three arguments as launched on core `c`. -/
abbrev xarr (c : Dev nD) : FVec Ideal S16384x2048 .f32 := m ((c : Thread nD τ).loc main_arg0)
abbrev warr (c : Dev nD) : FVec Ideal S2048x2048 .f32 := m ((c : Thread nD τ).loc main_arg1)
abbrev barr (c : Dev nD) : FVec Ideal S2048 .f32 := m ((c : Thread nD τ).loc main_arg2)

/-- The affine layer of the arguments as launched. -/
abbrev layer (c : Dev nD) : FVec Ideal S16384x2048 .f32 := Cert.Affine.affine (xarr m c) (warr m c) (barr m c)

/-! ## The arrays the region finds -/

/-- The weight window's array is `W` in another float format. -/
theorem weights_eq (c : Dev nD) :
    (V m c main_v0 : FVec Ideal S2048x2048 .bf16) = truncf (F := Ideal) .bf16 (warr m c) bitsLt_bf16_f32 := by
  dsimp only [Gen.V, Gen.hostOps0]; after_results

/-- The bias window's array is `b` as a one-row matrix. -/
theorem bias_eq (c : Dev nD) :
    (V m c main_v1 : FVec Ideal S1x2048 .f32) = shapeCast S1x2048 (barr m c) shapeCasts_S2048_S1x2048 := by
  dsimp only [Gen.V, Gen.hostOps0]; after_results; rfl

/-- The block indices over the grid: the slab and the output move with the point along the rows, the weights and the
    bias stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-! ## The input blocks at a point -/

/-- The slab at point `t`, read at `(p, k)`, is `x` at row `512 t + p`, column `k`. -/
theorem slab_apply (c : Dev nD) (t : Fin cfg0.N) (p : Fin 512) (k : Fin 2048) (i : S16384x2048.Idx)
    (h0 : (i 0).val = t.val * 512 + p.val) (h1 : (i 1).val = k.val) :
    (iblk m c 0 t : FVec Ideal S512x2048 .f32) (ix2 p k) = xarr m c i := by
  obtain ⟨e0, e1, -⟩ := idx_facts t
  unfold iblk
  rw [View.read_apply]
  show V m c main_arg0 _ = _
  rw [V_main_arg0]
  show xarr m c _ = xarr m c i
  congr 1
  funext a
  apply Fin.ext
  match a with
  | ⟨0, _⟩ => show win0_0.index t (0 : Fin 2) * 512 + 1 * p.val = (i 0).val; rw [e0, h0]; omega
  | ⟨1, _⟩ => show win0_0.index t (1 : Fin 2) * 2048 + 1 * k.val = (i 1).val; rw [e1, h1]; omega

/-- The weight block at any point, read at `(k, q)`, is `W` there. -/
theorem wblk_apply (c : Dev nD) (t : Fin cfg0.N) (k q : Fin 2048) :
    (iblk m c 1 t : FVec Ideal S2048x2048 .bf16) (ix2 k q) = warr m c (ix2 k q) := by
  obtain ⟨-, -, e0, e1, -⟩ := idx_facts t
  unfold iblk
  rw [View.read_apply]
  show (V m c main_v0 : FVec Ideal S2048x2048 .bf16) _ = _
  rw [weights_eq]
  show warr m c _ = warr m c (ix2 k q)
  congr 1
  funext a
  apply Fin.ext
  match a with
  | ⟨0, _⟩ => show win0_1.index t (0 : Fin 2) * 2048 + 1 * k.val = k.val; rw [e0]; omega
  | ⟨1, _⟩ => show win0_1.index t (1 : Fin 2) * 2048 + 1 * q.val = q.val; rw [e1]; omega

/-- The bias block at any point, read at `(0, q)`, is `b` at `q`. -/
theorem bblk_apply (c : Dev nD) (t : Fin cfg0.N) (q : Fin 2048) :
    (iblk m c 2 t : FVec Ideal S1x2048 .f32) (ix2 (0 : Fin 1) q) = barr m c (ix1 q) := by
  obtain ⟨-, -, -, -, e0, e1, -⟩ := idx_facts t
  unfold iblk
  rw [View.read_apply]
  show (V m c main_v1 : FVec Ideal S1x2048 .f32) _ = _
  rw [bias_eq]
  refine Eq.trans (congrArg _ ?_) (shapeCast_a_1a_apply (barr m c) shapeCasts_S2048_S1x2048 (0 : Fin 1) q)
  funext a
  apply Fin.ext
  match a with
  | ⟨0, _⟩ => show win0_2.index t (0 : Fin 2) * 1 + 1 * 0 = 0; rw [e0]
  | ⟨1, _⟩ => show win0_2.index t (1 : Fin 2) * 2048 + 1 * q.val = q.val; rw [e1]; omega

/-! ## What a point writes back -/

/-- Point `t` writes back block `t` of the layer. -/
theorem flushed_eq (c : Dev nD) (t : Fin cfg0.N) :
    (dats m 0 c).flushed 3 t = ((cfg0.win 3).blk t).view.read (Elt Ideal) (layer m c) := by
  rw [Value.flushed3]
  unfold out0_3
  rw [View.canon_unit_zero hz]
  simp only [View.ld_unit_zero (S := S512x2048) hz, View.ld_unit_zero (S := S2048x2048) hz,
    View.ld_unit_zero (S := S1x2048) hz]
  obtain ⟨-, -, -, -, -, -, e0, e1⟩ := idx_facts t
  have ht : t.val < 32 := lt_of_lt_of_eq t.isLt N_0
  funext y
  obtain ⟨p, q, rfl⟩ : ∃ (p : Fin 512) (q : Fin 2048), y = ix2 p q := ⟨y 0, y 1, eq_ix2 y⟩
  have hp : p.val < 512 := p.isLt
  have hemb : ((cfg0.win 3).blk t).view.emb (ix2 p q) = ix2 (⟨t.val * 512 + p.val, by omega⟩ : Fin 16384) q :=
    funext fun a => Fin.ext (by
      match a with
      | ⟨0, _⟩ => show win0_3.index t (0 : Fin 2) * 512 + 1 * p.val = t.val * 512 + p.val; rw [e0]; omega
      | ⟨1, _⟩ => show win0_3.index t (1 : Fin 2) * 2048 + 1 * q.val = q.val; rw [e1]; omega)
  show k0_pay1 (F := Ideal) (iblk m c 0 t) (iblk m c 1 t) (iblk m c 2 t) (ix2 p q)
    = layer m c (((cfg0.win 3).blk t).view.emb (ix2 p q))
  rw [hemb]
  refine ((Cert.KernelIdeal.Tile.stored_apply _ _ _ p q).trans ?_).trans
    (Cert.Affine.affine_apply (xarr m c) (warr m c) (barr m c) _ q).symm
  congr 1
  · refine Finset.sum_congr rfl fun k _ => ?_
    rw [slab_apply m c t p k (ix2 (⟨t.val * 512 + p.val, by omega⟩ : Fin 16384) k) rfl rfl, wblk_apply m c t k q]
  · exact bblk_apply m c t q

/-! ## The blocks tile the array -/

/-- An index is in point `t`'s block iff each coordinate is in the block's range on its axis. -/
theorem mem_blk (t : Fin cfg0.N) (i : S16384x2048.Idx) :
    i ∈ ((cfg0.win 3).blk t).view.set ↔ ∀ a : Fin 2, win0_3.index t a * S512x2048.size a ≤ (i a).val
      ∧ (i a).val < win0_3.index t a * S512x2048.size a + S512x2048.size a := by
  show i ∈ ((View.whole main_v2).slice (win0_3.rect t)).set ↔ _
  rw [View.set_slice_whole, Rect.mem_set_unit]
  exact Iff.rfl

/-- Row `r` lies in the block of point `r / 512`. -/
theorem cover (i : S16384x2048.Idx) :
    ∃ t : Fin cfg0.N, (cfg0.win 3).flush t = true ∧ i ∈ ((cfg0.win 3).blk t).view.set := by
  have hi0 : (i 0).val < 16384 := (i 0).isLt
  have hi1 : (i 1).val < 2048 := (i 1).isLt
  have hN : cfg0.N = 32 := N_0
  obtain ⟨t, ht⟩ : ∃ t : Fin cfg0.N, t.val = (i 0).val / 512 := ⟨⟨(i 0).val / 512, by rw [hN]; omega⟩, rfl⟩
  obtain ⟨-, -, -, -, -, -, e0, e1⟩ := idx_facts t
  refine ⟨t, flush0_3 t, ?_⟩
  rw [mem_blk]
  intro a
  match a with
  | ⟨0, _⟩ =>
    show win0_3.index t (0 : Fin 2) * 512 ≤ (i 0).val ∧ (i 0).val < win0_3.index t (0 : Fin 2) * 512 + 512
    rw [e0, ht]; omega
  | ⟨1, _⟩ =>
    show win0_3.index t (1 : Fin 2) * 2048 ≤ (i 1).val ∧ (i 1).val < win0_3.index t (1 : Fin 2) * 2048 + 2048
    rw [e1]; omega

/-! ## The result array and the run -/

/-- After the run the result array is the layer. -/
theorem final (c : Dev nD) : (dats m 0 c).arrAt 3 cfg0.N = layer m c :=
  (dats m 0 c).arrAt_eq_of_cover 3 (layer m c) (fun t _ => flushed_eq m c t) cover

/-- Every weakly fair execution of the kernel's program ends with the result array at the layer and the arguments
    unchanged. -/
theorem run : θ_run defs (onTc (τ := τ) (main (F := Ideal))) ⟨m, fun _ => 0, ρ⟩ fun r => ∀ c : Dev nD,
      r.2.mem ((c : Thread nD τ).loc main_v2) = layer m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Hand

end
-- ==== Proof.RefAffine.lean ====
/-
  The host program computes the affine layer.

  The host program transposes `W` and `x`, multiplies `Wᵀ · xᵀ` (a 2048 × 16384 matrix whose entry `(j, r)` is
  `∑ k, Wᵀ (j, k) · xᵀ (k, r) = ∑ k, W (k, j) · x (r, k)`), transposes the product back, and adds the bias laid along
  every row. Read at `(r, j)` that is the layer's entry with the two factors swapped.
-/
import proofs.«161759_g77421080477881_cont_sun_c4_101_2_alg».proof.Proof.Gen.ReferenceIdeal.Read
import proofs.«161759_g77421080477881_cont_sun_c4_101_2_alg».proof.Proof.Affine

noncomputable section

namespace Cert.ReferenceIdeal.RefValue

open Cert.ReferenceIdeal Cert.ReferenceIdeal.Gen Cert.ReferenceIdeal.Read
open Idealize.ShloMosaic Idealize.ShloMosaic.ValueIdx

/-- The host program's result, as a function of its three arguments, is the affine layer. -/
theorem result_eq (x : FVec Ideal S16384x2048 .f32) (W : FVec Ideal S2048x2048 .f32) (b : FVec Ideal S2048 .f32) :
    val_main_v6 (F := Ideal) x W b = Cert.Affine.affine x W b := by
  funext i
  obtain ⟨r, j, rfl⟩ : ∃ (r : Fin 16384) (j : Fin 2048), i = ix2 r j := ⟨i 0, i 1, eq_ix2 i⟩
  rw [Cert.Affine.affine_apply_comm, val_main_v6_apply, val_main_v3_apply, val_main_v2_apply, val_main_v5_apply,
    val_main_v4_apply]
  simp only [val_main_v0_apply, val_main_v1_apply]
  -- the transposed product's left operand at (j, k) is W at (k, j), its right operand at (k, r) is x at (r, k)
  have eW : ∀ k : Fin 2048, idx_main_v0 (lidx_main_v2 (idx_main_v3 (ix2 r j)) k) = ix2 k j := fun k =>
    funext fun a => Fin.ext (by match a with | ⟨0, _⟩ => rfl | ⟨1, _⟩ => rfl)
  have ex : ∀ k : Fin 2048, idx_main_v1 (ridx_main_v2 (idx_main_v3 (ix2 r j)) k) = ix2 r k := fun k =>
    funext fun a => Fin.ext (by match a with | ⟨0, _⟩ => rfl | ⟨1, _⟩ => rfl)
  -- the bias row laid along every row, read at (r, j), is the bias at j
  have eb : idx_main_v4 (idx_main_v5 (ix2 r j)) = ix1 j :=
    funext fun a => Fin.ext (by match a with | ⟨0, _⟩ => rfl)
  simp only [eW, ex, eb]
  rfl

end Cert.ReferenceIdeal.RefValue

end
-- ==== Proof.lean ====
/-
  The dense layer `inputs · W + b` (16384 × 2048 by 2048 × 2048, plus a bias of 2048 numbers), computed by a kernel
  a slab of 512 rows at a time, against the host program `(Wᵀ · inputsᵀ)ᵀ + b`.

  On the extended reals a change of float format is the identity, so the kernel's cast of `W` and of each slab to a
  shorter format changes nothing, and a product accumulated into a zero array is the plain sum over the contracted
  axis. Both programs therefore end with the result array at `∑ k, inputs (r, k) · W (k, j) + b j` at every `(r, j)`;
  the host spells the summand `W (k, j) · inputs (r, k)`, and multiplication of extended reals is commutative. The law
  holds at infinite entries too, so the precondition (finite inputs) is not used by the value claim.

  The three frame claims are the two kernels' frame certificates and the host program's run with its result dropped;
  the idealization rewrote no operation, so its claim is `True`.
-/
import proofs.«161759_g77421080477881_cont_sun_c4_101_2_alg».proof.Defs
import proofs.«161759_g77421080477881_cont_sun_c4_101_2_alg».proof.Proof.Gen.Kernel
import proofs.«161759_g77421080477881_cont_sun_c4_101_2_alg».proof.Proof.Gen.Kernel.Skeleton
import proofs.«161759_g77421080477881_cont_sun_c4_101_2_alg».proof.Proof.Gen.Kernel.Launch
import proofs.«161759_g77421080477881_cont_sun_c4_101_2_alg».proof.Proof.Gen.Kernel.Points
import proofs.«161759_g77421080477881_cont_sun_c4_101_2_alg».proof.Proof.Gen.Kernel.Frame
import proofs.«161759_g77421080477881_cont_sun_c4_101_2_alg».proof.Proof.Gen.KernelIdeal
import proofs.«161759_g77421080477881_cont_sun_c4_101_2_alg».proof.Proof.Gen.KernelIdeal.Skeleton
import proofs.«161759_g77421080477881_cont_sun_c4_101_2_alg».proof.Proof.Gen.KernelIdeal.Launch
import proofs.«161759_g77421080477881_cont_sun_c4_101_2_alg».proof.Proof.Gen.KernelIdeal.Points
import proofs.«161759_g77421080477881_cont_sun_c4_101_2_alg».proof.Proof.Gen.KernelIdeal.Frame
import proofs.«161759_g77421080477881_cont_sun_c4_101_2_alg».proof.Proof.Gen.ReferenceIdeal
import proofs.«161759_g77421080477881_cont_sun_c4_101_2_alg».proof.Proof.Gen.Pre_finite_inputs
import proofs.«161759_g77421080477881_cont_sun_c4_101_2_alg».proof.Proof.Gen.KernelIdeal.Value
import proofs.«161759_g77421080477881_cont_sun_c4_101_2_alg».proof.Proof.Gen.ReferenceIdeal.Run
import proofs.«161759_g77421080477881_cont_sun_c4_101_2_alg».proof.Proof.Gen.ReferenceIdeal.Read
import proofs.«161759_g77421080477881_cont_sun_c4_101_2_alg».proof.Proof.KernelValue
import proofs.«161759_g77421080477881_cont_sun_c4_101_2_alg».proof.Proof.RefAffine
import Idealize.ShloMosaic.Adequacy
import Idealize.ShloMosaic.Init

noncomputable section

namespace Cert.Proof

open Idealize.ShloMosaic Idealize.ShloMosaic.TcCoe Idealize.SL.Sem

/-- The kernel as printed runs to the end and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The host program's run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the three arguments, both programs end with the result array at the affine layer of
    those arguments: the kernel block by block, the host through its transposed product. -/
theorem algebraic : Cert.algebraic_KernelIdeal_ReferenceIdeal := by
  intro m ρ m' ρ' _ hagree
  refine ⟨fun c => Cert.KernelIdeal.Hand.layer m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.ReferenceIdeal.RefValue.result_eq, (hagree c).1, (hagree c).2.1,
    (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
